-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S512x1024 : Shape := ⟨2, ![512, 1024]⟩
abbrev S1024 : Shape := ⟨1, ![1024]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S1024 .f32) (main_arg5 : FVec F S256 .f32) (main_arg6 : FVec F S256 .f32) (main_arg7 : FVec F S256 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S131072x256 .f32) (main_arg1 : FVec F S131072x256 .f32) (main_arg2 : FVec F S131072x256 .f32) (main_arg3 : FVec F S512x1024 .f32) (main_arg4 : FVec F S1024 .f32) (main_arg5 : FVec F S256 .f32) (main_arg6 : FVec F S256 .f32) (main_arg7 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_v13 main_v16
-- ==== Kernel.lean ====
abbrev S131072x256 : Shape := ⟨2, ![131072, 256]⟩
abbrev S512x1024 : Shape := ⟨2, ![512, 1024]⟩
abbrev S1024 : Shape := ⟨1, ![1024]⟩
abbrev S256 : Shape := ⟨1, ![256]⟩
abbrev S1x1024 : Shape := ⟨2, ![1, 1024]⟩
abbrev S1x256 : Shape := ⟨2, ![1, 256]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S512x1024, .f32⟩
  | .hbm, ⟨4, _⟩ => ⟨S1024, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1x1024, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S131072x256, .f32⟩
  | .hbm, ⟨13, _⟩ => ⟨S131072x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S512x1024, .f32⟩
  | .local _ .vmem, ⟨7, _⟩ => ⟨S1x1024, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1024_S1x1024 : S1024.ShapeCasts S1x1024
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S512x1024_S256x1024_0_0 : ∀ a, (![0, 0] : Fin 2 → Nat) a + S256x1024.size a ≤ S512x1024.size a
  h_S256x1024 : 0 < S256x1024.numel
  inb_S512x1024_S256x1024_256_0 : ∀ a, (![256, 0] : Fin 2 → Nat) a + S256x1024.size a ≤ S512x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S131072x256.size a
  hwx0_8 : ∀ i : grid0.Coords, EltTy.bits .f32 = 32 ∨ (Rect.block (s := S131072x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S131072x256.size a
  hwx0_9 : ∀ i : grid0.Coords, EltTy.bits .f32 = 32 ∨ (Rect.block (s := S131072x256) S1024x256.size (cc0_transform_9 i) (hinb0_9 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x256 : Shape := ⟨2, ![131072, 256]⟩
abbrev S512x1024 : Shape := ⟨2, ![512, 1024]⟩
abbrev S1024 : Shape := ⟨1, ![1024]⟩
abbrev S256 : Shape := ⟨1, ![256]⟩
abbrev S131072x512 : Shape := ⟨2, ![131072, 512]⟩
abbrev S131072x1024 : Shape := ⟨2, ![131072, 1024]⟩
abbrev S1x1024 : Shape := ⟨2, ![1, 1024]⟩
abbrev S1x256 : Shape := ⟨2, ![1, 256]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S512x1024, .f32⟩
  | .hbm, ⟨4, _⟩ => ⟨S1024, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S131072x512, .f32⟩
  | .hbm, ⟨9, _⟩ => ⟨S131072x1024, .f32⟩
  | .hbm, ⟨10, _⟩ => ⟨S1x1024, .f32⟩
  | .hbm, ⟨11, _⟩ => ⟨S131072x1024, .f32⟩
  | .hbm, ⟨12, _⟩ => ⟨S131072x1024, .f32⟩
  | .hbm, ⟨13, _⟩ => ⟨S131072x256, .f32⟩
  | .hbm, ⟨14, _⟩ => ⟨S131072x256, .f32⟩
  | .hbm, ⟨15, _⟩ => ⟨S131072x256, .f32⟩
  | .hbm, ⟨16, _⟩ => ⟨S131072x256, .f32⟩
  | .hbm, ⟨17, _⟩ => ⟨S1x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S131072x256, .f32⟩
  | .hbm, ⟨23, _⟩ => ⟨S_, .f32⟩
  | .hbm, ⟨24, _⟩ => ⟨S131072x256, .f32⟩
  | .hbm, ⟨25, _⟩ => ⟨S131072x256, .f32⟩
  | .hbm, ⟨26, _⟩ => ⟨S_, .f32⟩
  | .hbm, ⟨27, _⟩ => ⟨S131072x256, .f32⟩
  | .hbm, ⟨28, _⟩ => ⟨S131072x256, .f32⟩
  | .hbm, ⟨29, _⟩ => ⟨S1x256, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S_, .f32⟩
  | .hbm, ⟨39, _⟩ => ⟨S131072x256, .f32⟩
  | .hbm, ⟨40, _⟩ => ⟨S131072x256, .f32⟩
  | .hbm, ⟨41, _⟩ => ⟨S1x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S_, .f32⟩
  | .hbm, ⟨48, _⟩ => ⟨S131072x256, .f32⟩
  | .hbm, ⟨49, _⟩ => ⟨S131072x256, .f32⟩
  | .hbm, ⟨50, _⟩ => ⟨S_, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S131072x256, .f32⟩
  | .hbm, ⟨58, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  concatenates_S131072x256_S131072x256_S131072x512_d1 : Shape.Concatenates [S131072x256, S131072x256] S131072x512 1
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  dot_S131072x512_S512x1024_S131072x1024_1_0_0_1_n_n_wf : DotDims.WF S131072x512 S512x1024 S131072x1024 [1] [0] [0] [1] [] []

variable [Facts₀]

def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf

class Facts : Prop extends Facts₀ where

variable [Facts]
-- ==== Proof.CellSpec.lean ====
/-
  One step of a peephole LSTM cell over a batch, stated index by index on the extended reals.

  For batch row `r` and unit `q`, write `z r j` for the gate pre-activation at column `j` of the
  four-gate weight matrix: row `r` of the input against the upper 256 rows of `W`, plus row `r` of the
  previous hidden state against the lower 256 rows, plus the bias,

      z r j = Σ_{k<256} x[r,k]·W[k,j]  +  Σ_{k<256} h[r,k]·W[256+k,j]  +  b[j].

  The input, forget, candidate and output gates read columns `q`, `256+q`, `512+q`, `768+q`; each of the
  three sigmoid gates adds its peephole weight times the previous cell state before the sigmoid:

      i = σ(z r q       + p_i[q]·c[r,q])        f = σ(z r (256+q) + p_f[q]·c[r,q])
      o = σ(z r (768+q) + p_o[q]·c[r,q])        ĉ = tanh(z r (512+q))
      c' = f·c[r,q] + i·ĉ                        h' = o·tanh(c').

  Two small laws are kept here too, because both programs are set against this one statement: a sum over
  512 indices is the sum over its first 256 plus the sum over its last 256 (addition of extended reals is
  commutative and associative, so no finiteness is asked), and the sigmoid is `1 / (1 + e^(-u))` with the
  division's and the exponential's conventions at the infinities, which is how one of the programs spells it.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Cell

/-- Batch rows by units: the input, both states, and both results. -/
abbrev SRows : Shape := ⟨2, ![131072, 256]⟩
/-- The four-gate weight matrix: 256 input rows over 256 hidden rows, by four gates of 256 columns. -/
abbrev SWeights : Shape := ⟨2, ![512, 1024]⟩
/-- The four-gate bias. -/
abbrev SBias : Shape := ⟨1, ![1024]⟩
/-- One gate's peephole weights. -/
abbrev SPeep : Shape := ⟨1, ![256]⟩

/-- Row `k` of the weight matrix's upper half, the rows the input meets. -/
abbrev upper (k : Fin 256) : Fin 512 := ⟨k.val, by have := k.isLt; omega⟩
/-- Row `256 + k` of the weight matrix, the rows the previous hidden state meets. -/
abbrev lower (k : Fin 256) : Fin 512 := ⟨256 + k.val, by have := k.isLt; omega⟩

/-- Column `q` of the input gate's quarter. -/
abbrev colIn (q : Fin 256) : Fin 1024 := ⟨q.val, by have := q.isLt; omega⟩
/-- Column `q` of the forget gate's quarter. -/
abbrev colForget (q : Fin 256) : Fin 1024 := ⟨256 + q.val, by have := q.isLt; omega⟩
/-- Column `q` of the candidate's quarter. -/
abbrev colCand (q : Fin 256) : Fin 1024 := ⟨512 + q.val, by have := q.isLt; omega⟩
/-- Column `q` of the output gate's quarter. -/
abbrev colOut (q : Fin 256) : Fin 1024 := ⟨768 + q.val, by have := q.isLt; omega⟩

variable (x h c : SRows.Idx → EReal) (W : SWeights.Idx → EReal) (b : SBias.Idx → EReal)
  (pIn pForget pOut : SPeep.Idx → EReal)

/-- The gate pre-activation `z r j`. -/
def preact (r : Fin 131072) (j : Fin 1024) : EReal :=
  (∑ k : Fin 256, x (ix2 r k) * W (ix2 (upper k) j)) + (∑ k : Fin 256, h (ix2 r k) * W (ix2 (lower k) j)) + b (ix1 j)

/-- The new cell state `c' = f·c + i·ĉ` at row `r`, unit `q`. -/
def cellAt (r : Fin 131072) (q : Fin 256) : EReal :=
  Ideal.logistic (preact x h W b r (colForget q) + pForget (ix1 q) * c (ix2 r q)) * c (ix2 r q)
    + Ideal.logistic (preact x h W b r (colIn q) + pIn (ix1 q) * c (ix2 r q)) * Ideal.tanh (preact x h W b r (colCand q))

/-- The new hidden state `h' = o·tanh(c')` at row `r`, unit `q`. -/
def hiddenAt (r : Fin 131072) (q : Fin 256) : EReal :=
  Ideal.logistic (preact x h W b r (colOut q) + pOut (ix1 q) * c (ix2 r q)) * Ideal.tanh (cellAt x h c W b pIn pForget r q)

/-- The new cell state as an array. -/
def cellNew : SRows.Idx → EReal := fun i => cellAt x h c W b pIn pForget (i 0) (i 1)

/-- The new hidden state as an array. -/
def hiddenNew : SRows.Idx → EReal := fun i => hiddenAt x h c W b pIn pForget pOut (i 0) (i 1)

/-- A sum over 512 indices is the sum over the first 256 plus the sum over the last 256. -/
theorem sum_halves (f : Fin 512 → EReal) :
    ∑ k : Fin 512, f k = (∑ k : Fin 256, f (upper k)) + ∑ k : Fin 256, f (lower k) :=
  Fin.sum_univ_add (a := 256) (b := 256) f

/-- The sigmoid spelt out: one over one plus the exponential of the negation. -/
theorem logistic_spelt (u : EReal) : Ideal.div 1 (1 + Ideal.exp (-u)) = Ideal.logistic u := rfl

/-- The single-precision word of `1.0` denotes the extended real `1`. -/
theorem one_word : Ideal.ofBits .f32 0x3F800000#32 = 1 := by
  simp [Ideal.ofBits, Ideal.ieee, -EReal.coe_mul]; norm_num

end Cert.Cell

end
-- ==== Proof.RefCell.lean ====
/-
  The reference computes the peephole LSTM step of the specification.

  The reference joins the input and the previous hidden state side by side into one 512-column operand and
  takes ONE product with the whole weight matrix; column `k < 256` of the joined operand is the input's column
  `k` and column `256 + k` is the hidden state's column `k`, so splitting the 512-term sum into its two halves
  gives the specification's pre-activation. The four gates are slices of that product plus the bias at column
  offsets 0, 256, 512, 768; each sigmoid is spelt `1 / (1 + e^(-u))`, which is the sigmoid on the extended
  reals; and the peephole weights are broadcast along the batch rows.
-/
import proofs.«154473_j20177756357192_1_alg».proof.Proof.Gen.ReferenceIdeal.Read
import proofs.«154473_j20177756357192_1_alg».proof.Proof.CellSpec

noncomputable section

namespace Cert.ReferenceIdeal.RefCell

open Cert.ReferenceIdeal Cert.ReferenceIdeal.Gen Cert.ReferenceIdeal.Read
open Idealize.ShloMosaic Idealize.ShloMosaic.TcCoe Idealize.ShloMosaic.ValueIdx Cert.Cell

variable (x0 x1 x2 : (⟨S131072x256, .f32⟩ : BufTy).Contents (Elt Ideal))
  (x3 : (⟨S512x1024, .f32⟩ : BufTy).Contents (Elt Ideal)) (x4 : (⟨S1024, .f32⟩ : BufTy).Contents (Elt Ideal))
  (x5 x6 x7 : (⟨S256, .f32⟩ : BufTy).Contents (Elt Ideal))

/-- Column `k < 256` of the joined operand is the input's column `k`. -/
theorem joined_upper (i : S131072x1024.Idx) (k : Fin 256) :
    val_main_v0 (F := Ideal) x0 x1 (lidx_main_v1 i (upper k)) = x0 (ix2 (i 0) k) := by
  unfold val_main_v0
  exact concatenate_pair_apply_left 1 x0 x1 concatenates_S131072x256_S131072x256_S131072x512_d1
    (lidx_main_v1 i (upper k)) rfl (ix2 (i 0) k) (fun b => match b with | ⟨0, _⟩ => rfl | ⟨1, _⟩ => rfl)

/-- Column `256 + k` of the joined operand is the hidden state's column `k`. -/
theorem joined_lower (i : S131072x1024.Idx) (k : Fin 256) :
    val_main_v0 (F := Ideal) x0 x1 (lidx_main_v1 i (lower k)) = x1 (ix2 (i 0) k) := by
  unfold val_main_v0
  exact concatenate_pair_apply_right 1 x0 x1 concatenates_S131072x256_S131072x256_S131072x512_d1
    (lidx_main_v1 i (lower k)) rfl rfl (ix2 (i 0) k)
    (fun b => match b with | ⟨0, _⟩ => fun _ => rfl | ⟨1, _⟩ => fun hne => absurd rfl hne)
    (by show k.val + 256 = 256 + k.val; omega)

/-- The product with the whole weight matrix plus the bias, at row `r` and column `j`, is the specification's
    pre-activation: the 512-term sum splits into the input's half and the hidden state's half. -/
theorem preact_eq (i : S131072x1024.Idx) (r : Fin 131072) (j : Fin 1024) (hr : i 0 = r) (hj : i 1 = j) :
    val_main_v4 (F := Ideal) x0 x1 x3 x4 i = preact x0 x1 x3 x4 r j := by
  subst hr; subst hj
  have eW : ∀ k : Fin 512, ridx_main_v1 i k = ix2 k (i 1) :=
    fun k => funext fun a => match a with | ⟨0, _⟩ => rfl | ⟨1, _⟩ => rfl
  have eb : idx_main_v2 (idx_main_v3 i) = ix1 (i 1) := funext fun a => match a with | ⟨0, _⟩ => rfl
  rw [val_main_v4_apply, val_main_v1_apply, val_main_v3_apply, val_main_v2_apply, sum_halves]
  simp only [joined_upper, joined_lower, eW, eb]
  rfl

/-- The reference's new cell state is the specification's. -/
theorem cell_eq : val_main_v42 (F := Ideal) x0 x1 x2 x3 x4 x5 x6 = cellNew x0 x1 x2 x3 x4 x5 x6 := by
  funext i
  obtain ⟨r, q, rfl⟩ : ∃ (r : Fin 131072) (q : Fin 256), i = ix2 r q := ⟨i 0, i 1, eq_ix2 i⟩
  have pI : idx_main_v9 (idx_main_v10 (ix2 r q)) = ix1 q := funext fun a => match a with | ⟨0, _⟩ => rfl
  have pF : idx_main_v19 (idx_main_v20 (ix2 r q)) = ix1 q := funext fun a => match a with | ⟨0, _⟩ => rfl
  show _ = cellAt x0 x1 x2 x3 x4 x5 x6 r q
  unfold cellAt
  simp only [val_main_v42_apply, val_main_v40_apply, val_main_v41_apply, val_main_v39_apply,
    val_main_v28_apply, val_main_v27_apply, val_main_cst_2_apply, val_main_v26_apply, val_main_v25_apply, val_main_cst_1_apply,
    val_main_v24_apply, val_main_v23_apply, val_main_v22_apply, val_main_v21_apply, val_main_v20_apply, val_main_v19_apply,
    val_main_v18_apply, val_main_v17_apply, val_main_cst_0_apply, val_main_v16_apply, val_main_v15_apply, val_main_cst_apply,
    val_main_v14_apply, val_main_v13_apply, val_main_v12_apply, val_main_v11_apply, val_main_v10_apply, val_main_v9_apply,
    val_main_v5_apply, val_main_v6_apply, val_main_v7_apply]
  rw [preact_eq x0 x1 x3 x4 (idx_main_v5 (ix2 r q)) r (colIn q) rfl rfl,
    preact_eq x0 x1 x3 x4 (idx_main_v6 (ix2 r q)) r (colForget q) rfl rfl,
    preact_eq x0 x1 x3 x4 (idx_main_v7 (ix2 r q)) r (colCand q) rfl rfl, pI, pF]
  simp only [Ideal.addf_def, Ideal.mulf_def, Ideal.hostDivf_def, Ideal.hostUnary_exp_def, Ideal.hostNegf_def,
    Ideal.negf_def, Ideal.hostUnary_tanh_def, Ideal.ofBits_def, one_word, logistic_spelt]

/-- The reference's new hidden state is the specification's. -/
theorem hidden_eq : val_main_v44 (F := Ideal) x0 x1 x2 x3 x4 x5 x6 x7 = hiddenNew x0 x1 x2 x3 x4 x5 x6 x7 := by
  funext i
  have hc : val_main_v42 (F := Ideal) x0 x1 x2 x3 x4 x5 x6 i = cellAt x0 x1 x2 x3 x4 x5 x6 (i 0) (i 1) :=
    congrFun (cell_eq x0 x1 x2 x3 x4 x5 x6) i
  obtain ⟨r, q, rfl⟩ : ∃ (r : Fin 131072) (q : Fin 256), i = ix2 r q := ⟨i 0, i 1, eq_ix2 i⟩
  have pO : idx_main_v29 (idx_main_v30 (ix2 r q)) = ix1 q := funext fun a => match a with | ⟨0, _⟩ => rfl
  show _ = hiddenAt x0 x1 x2 x3 x4 x5 x6 x7 r q
  unfold hiddenAt
  rw [val_main_v44_apply, val_main_v43_apply, hc]
  simp only [val_main_v38_apply, val_main_v37_apply, val_main_cst_4_apply, val_main_v36_apply, val_main_v35_apply,
    val_main_cst_3_apply, val_main_v34_apply, val_main_v33_apply, val_main_v32_apply, val_main_v31_apply, val_main_v30_apply,
    val_main_v29_apply, val_main_v8_apply]
  rw [preact_eq x0 x1 x3 x4 (idx_main_v8 (ix2 r q)) r (colOut q) rfl rfl, pO]
  simp only [Ideal.addf_def, Ideal.mulf_def, Ideal.hostDivf_def, Ideal.hostUnary_exp_def, Ideal.hostNegf_def,
    Ideal.negf_def, Ideal.hostUnary_tanh_def, Ideal.ofBits_def, one_word, logistic_spelt]

end Cert.ReferenceIdeal.RefCell

end
-- ==== Proof.KernelTile.lean ====
/-
  One grid point's block of the kernel, index by index.

  A grid point holds 1024 batch rows. Its pre-activation tile is the product of the rows' input block with the
  upper 256 rows of the weight matrix, plus the product of the rows' hidden-state block with the lower 256
  rows, plus the bias row broadcast down the tile; on the extended reals the change of float format in front
  of each product is the identity and a product into a zero accumulator is the plain sum over the 256
  contracted positions. The gates are column slices of that tile, so the generated index-by-index form of
  each output block reads it at columns `q`, `256+q`, `512+q`, `768+q`.
-/
import proofs.«154473_j20177756357192_1_alg».proof.Proof.Gen.KernelIdeal.Skeleton
import proofs.«154473_j20177756357192_1_alg».proof.Proof.CellSpec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.TcCoe Idealize.ShloMosaic.ValueIdx

/-! ## The product's operand indices, axis by axis -/

theorem lhs_axis0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_axis1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_axis0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_axis1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- A 1024×256 block times a 256×1024 half of the weights, into a zero accumulator, at row `p` and column `j`:
    the sum over the 256 contracted positions of the block's row entry times the half's column entry. -/
theorem product_apply (A : Vec Ideal S1024x256 .f32) (B : Vec Ideal S256x1024 .f32) (i : S1024x1024.Idx) :
    matmul (F := Ideal) dot_S1024x256_S256x1024_S1024x1024_1_0_0_1_n_n none (truncf .bf16 A bitsLt_bf16_f32) (truncf .bf16 B bitsLt_bf16_f32)
        (constant S1024x1024 .f32 0x00000000#32) i
      = ∑ k : Fin 256, A (ix2 (i 0) k) * B (ix2 k (i 1)) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx i ((ValueIdx.contrEquiv1 dot_S1024x256_S256x1024_S1024x1024_1_0_0_1_n_n 256 rfl rfl).symm k) = ix2 (i 0) k := funext fun a => Fin.ext (by
    match a with
    | ⟨0, _⟩ => exact lhs_axis0 _ _
    | ⟨1, _⟩ => exact (lhs_axis1 _ _).trans hk)
  have er : dot_S1024x256_S256x1024_S1024x1024_1_0_0_1_n_n.rhsIdx i ((ValueIdx.contrEquiv1 dot_S1024x256_S256x1024_S1024x1024_1_0_0_1_n_n 256 rfl rfl).symm k) = ix2 k (i 1) := funext fun a => Fin.ext (by
    match a with
    | ⟨0, _⟩ => exact (rhs_axis0 _ _).trans hk
    | ⟨1, _⟩ => exact rhs_axis1 _ _)
  rw [el, er]
  rfl

/-- The pre-activation tile at row `p`, column `j`: both products plus the bias at column `j`. -/
theorem tile_apply (A H : Vec Ideal S1024x256 .f32) (Wu Wl : Vec Ideal S256x1024 .f32) (B : Vec Ideal S1x1024 .f32)
    (i : S1024x1024.Idx) :
    k0_pay3 (F := Ideal) A H Wu Wl B i
      = (∑ k : Fin 256, A (ix2 (i 0) k) * Wu (ix2 k (i 1))) + (∑ k : Fin 256, H (ix2 (i 0) k) * Wl (ix2 k (i 1)))
        + B (ix2 0 (i 1)) := by
  unfold k0_pay3
  rw [ValueIdx.addf_apply, ValueIdx.addf_apply, product_apply, product_apply, shapeCast_self,
    broadcastTo_apply B broadcasts_S1x1024_S1024x1024 i (ix2 0 (i 1)) (fun a => match a with
      | ⟨0, _⟩ => by show 0 = if (1 : Nat) = 1 then 0 else _; rw [if_pos rfl]
      | ⟨1, _⟩ => by show (i 1).val = if (1024 : Nat) = 1 then 0 else (i 1).val; rw [if_neg (by decide)])]

end Cert.KernelIdeal.Tile

end
-- ==== Proof.KernelRows.lean ====
/-
  From one grid point's blocks to the whole result arrays.

  The grid has 128 points; point `t` holds batch rows `1024·t … 1024·t + 1023` of the input and of both
  states, the whole weight matrix, and the bias and the three peephole vectors as single rows. On those blocks
  the body's two stores are, index by index, the specification's new hidden state and new cell state at row
  `1024·t + p` (the block's row `p`), because the point's pre-activation tile at row `p` is the
  specification's pre-activation at that batch row. Each point writes its block of rows back, the 128 blocks of
  rows tile the batch, so after the run each result array is the specification's array.
-/
import proofs.«154473_j20177756357192_1_alg».proof.Proof.Gen.KernelIdeal.Value
import proofs.«154473_j20177756357192_1_alg».proof.Proof.KernelTile
import proofs.«154473_j20177756357192_1_alg».proof.Proof.CellSpec
import Idealize.ShloMosaic.Lib.Pipeline.Value
import Idealize.ShloMosaic.Lib.ValueLayout
import Idealize.ShloMosaic.Lib.StableHlo.Run

noncomputable section

namespace Cert.KernelIdeal.Rows

open Cert.KernelIdeal Cert.KernelIdeal.Gen Cert.KernelIdeal.Value Cert.KernelIdeal.Tile
open Idealize.ShloMosaic Idealize.ShloMosaic.TcCoe Idealize.SL.Sem Idealize.ShloMosaic.ValueIdx Cert.Cell
open Idealize.ShloMosaic.Pipeline (Dat)

theorem zero_offsets : (![0, 0] : Fin 2 → Nat) = fun _ => 0 := funext fun a => by fin_cases a <;> rfl

/-! ## One point's blocks, as variables -/

section Block

variable (X H C : Vec Ideal S1024x256 .f32) (Wb : Vec Ideal S512x1024 .f32) (Bb : Vec Ideal S1x1024 .f32)
  (Pi Pf Po : Vec Ideal S1x256 .f32)
variable (x h c : SRows.Idx → EReal) (W : SWeights.Idx → EReal) (b : SBias.Idx → EReal)
  (pIn pForget pOut : SPeep.Idx → EReal)

/-- The blocks hold batch rows `base … base + 1023` of the three batch arrays, and all of the small arrays
    (the bias and the peephole vectors as one row each). -/
structure Holds (base : Nat) : Prop where
  input : ∀ (p : Fin 1024) (k : Fin 256) (r : Fin 131072), r.val = base + p.val → X (ix2 p k) = x (ix2 r k)
  hidden : ∀ (p : Fin 1024) (k : Fin 256) (r : Fin 131072), r.val = base + p.val → H (ix2 p k) = h (ix2 r k)
  cell : ∀ (p : Fin 1024) (k : Fin 256) (r : Fin 131072), r.val = base + p.val → C (ix2 p k) = c (ix2 r k)
  weights : ∀ (a : Fin 512) (j : Fin 1024), Wb (ix2 a j) = W (ix2 a j)
  bias : ∀ j : Fin 1024, Bb (ix2 0 j) = b (ix1 j)
  peepIn : ∀ q : Fin 256, Pi (ix2 0 q) = pIn (ix1 q)
  peepForget : ∀ q : Fin 256, Pf (ix2 0 q) = pForget (ix1 q)
  peepOut : ∀ q : Fin 256, Po (ix2 0 q) = pOut (ix1 q)

/-- The body's load of the weight block's upper 256 rows. -/
theorem ld_upper (k : Fin 256) (j : Fin 1024) : View.ld Wb r0_1 (ix2 k j) = Wb (ix2 (upper k) j) :=
  congrArg Wb (funext fun a => Fin.ext (by
    match a with
    | ⟨0, _⟩ => show 0 + 1 * k.val = k.val; omega
    | ⟨1, _⟩ => show 0 + 1 * j.val = j.val; omega))

/-- The body's load of the weight block's lower 256 rows. -/
theorem ld_lower (k : Fin 256) (j : Fin 1024) : View.ld Wb r0_2 (ix2 k j) = Wb (ix2 (lower k) j) :=
  congrArg Wb (funext fun a => Fin.ext (by
    match a with
    | ⟨0, _⟩ => show 256 + 1 * k.val = 256 + k.val; omega
    | ⟨1, _⟩ => show 0 + 1 * j.val = j.val; omega))

variable {X H C Wb Bb Pi Pf Po x h c W b pIn pForget pOut}

/-- The point's pre-activation tile at its row `p` is the specification's pre-activation at batch row
    `base + p`. -/
theorem tile_preact {base : Nat} (hh : Holds X H C Wb Bb Pi Pf Po x h c W b pIn pForget pOut base)
    (i : S1024x1024.Idx) (r : Fin 131072) (j : Fin 1024) (hr : r.val = base + (i 0).val) (hj : i 1 = j) :
    k0_pay3 (F := Ideal) X H (View.ld Wb r0_1) (View.ld Wb r0_2) Bb i = preact x h W b r j := by
  subst hj
  rw [tile_apply]
  unfold preact
  refine congrArg₂ (· + ·) (congrArg₂ (· + ·) (Finset.sum_congr rfl fun k _ => ?_) (Finset.sum_congr rfl fun k _ => ?_))
    (hh.bias (i 1))
  · exact congrArg₂ (· * ·) (hh.input (i 0) k r hr) ((ld_upper Wb k (i 1)).trans (hh.weights (upper k) (i 1)))
  · exact congrArg₂ (· * ·) (hh.hidden (i 0) k r hr) ((ld_lower Wb k (i 1)).trans (hh.weights (lower k) (i 1)))

/-- What the body leaves in the new-cell-state block at row `p`, unit `q`. -/
theorem cell_block {base : Nat} (hh : Holds X H C Wb Bb Pi Pf Po x h c W b pIn pForget pOut base)
    (y : S1024x256.Idx) (r : Fin 131072) (hr : r.val = base + (y 0).val) :
    out0_9 X H C Wb Bb Pi Pf Po y = cellAt x h c W b pIn pForget r (y 1) := by
  obtain ⟨p, q, rfl⟩ : ∃ (p : Fin 1024) (q : Fin 256), y = ix2 p q := ⟨y 0, y 1, eq_ix2 y⟩
  have e1 : ix9_1 (ix2 p q) = ix2 0 q := funext fun a => match a with | ⟨0, _⟩ => rfl | ⟨1, _⟩ => rfl
  have e2 : ix9_2 (ix2 p q) = ix2 p q := funext fun a => match a with | ⟨0, _⟩ => rfl | ⟨1, _⟩ => rfl
  have e3 : ix9_3 (ix2 p q) = ix2 p q := funext fun a => match a with | ⟨0, _⟩ => rfl | ⟨1, _⟩ => rfl
  have e5 : ix9_5 (ix2 p q) = ix2 0 q := funext fun a => match a with | ⟨0, _⟩ => rfl | ⟨1, _⟩ => rfl
  have e6 : ix9_6 (ix2 p q) = ix2 p q := funext fun a => match a with | ⟨0, _⟩ => rfl | ⟨1, _⟩ => rfl
  unfold out0_9
  rw [canon9_eq]
  simp only [View.ld_unit_zero (S := S1024x256) zero_offsets, View.ld_unit_zero (S := S1x1024) zero_offsets,
    View.ld_unit_zero (S := S1x256) zero_offsets]
  show FloatOps.addf (FloatOps.mulf (FloatOps.logistic (FloatOps.addf (k0_pay3 X H (View.ld Wb r0_1) (View.ld Wb r0_2) Bb (ix9_0 (ix2 p q))) (FloatOps.mulf (Pf (ix9_1 (ix2 p q))) (C (ix9_2 (ix2 p q)))))) (C (ix9_3 (ix2 p q))))
      (FloatOps.mulf (FloatOps.logistic (FloatOps.addf (k0_pay3 X H (View.ld Wb r0_1) (View.ld Wb r0_2) Bb (ix9_4 (ix2 p q))) (FloatOps.mulf (Pi (ix9_5 (ix2 p q))) (C (ix9_6 (ix2 p q))))))
        (FloatOps.tanh (k0_pay3 X H (View.ld Wb r0_1) (View.ld Wb r0_2) Bb (ix9_7 (ix2 p q))))) = _
  rw [tile_preact hh (ix9_0 (ix2 p q)) r (colForget q) hr (Fin.ext (by show q.val + 256 = 256 + q.val; omega)),
    tile_preact hh (ix9_4 (ix2 p q)) r (colIn q) hr (Fin.ext (by show q.val = q.val; rfl)),
    tile_preact hh (ix9_7 (ix2 p q)) r (colCand q) hr (Fin.ext (by show q.val + 512 = 512 + q.val; omega)),
    e1, e2, e3, e5, e6, hh.peepForget q, hh.peepIn q, hh.cell p q r hr]
  rfl

/-- What the body leaves in the new-hidden-state block at row `p`, unit `q`. -/
theorem hidden_block {base : Nat} (hh : Holds X H C Wb Bb Pi Pf Po x h c W b pIn pForget pOut base)
    (y : S1024x256.Idx) (r : Fin 131072) (hr : r.val = base + (y 0).val) :
    out0_8 X H C Wb Bb Pi Pf Po y = hiddenAt x h c W b pIn pForget pOut r (y 1) := by
  obtain ⟨p, q, rfl⟩ : ∃ (p : Fin 1024) (q : Fin 256), y = ix2 p q := ⟨y 0, y 1, eq_ix2 y⟩
  have e1 : ix8_1 (ix2 p q) = ix2 0 q := funext fun a => match a with | ⟨0, _⟩ => rfl | ⟨1, _⟩ => rfl
  have e2 : ix8_2 (ix2 p q) = ix2 p q := funext fun a => match a with | ⟨0, _⟩ => rfl | ⟨1, _⟩ => rfl
  have e4 : ix8_4 (ix2 p q) = ix2 0 q := funext fun a => match a with | ⟨0, _⟩ => rfl | ⟨1, _⟩ => rfl
  have e5 : ix8_5 (ix2 p q) = ix2 p q := funext fun a => match a with | ⟨0, _⟩ => rfl | ⟨1, _⟩ => rfl
  have e6 : ix8_6 (ix2 p q) = ix2 p q := funext fun a => match a with | ⟨0, _⟩ => rfl | ⟨1, _⟩ => rfl
  have e8 : ix8_8 (ix2 p q) = ix2 0 q := funext fun a => match a with | ⟨0, _⟩ => rfl | ⟨1, _⟩ => rfl
  have e9 : ix8_9 (ix2 p q) = ix2 p q := funext fun a => match a with | ⟨0, _⟩ => rfl | ⟨1, _⟩ => rfl
  unfold out0_8
  rw [canon8_eq]
  simp only [View.ld_unit_zero (S := S1024x256) zero_offsets, View.ld_unit_zero (S := S1x1024) zero_offsets,
    View.ld_unit_zero (S := S1x256) zero_offsets]
  show FloatOps.mulf (FloatOps.logistic (FloatOps.addf (k0_pay3 X H (View.ld Wb r0_1) (View.ld Wb r0_2) Bb (ix8_0 (ix2 p q))) (FloatOps.mulf (Po (ix8_1 (ix2 p q))) (C (ix8_2 (ix2 p q))))))
      (FloatOps.tanh (FloatOps.addf (FloatOps.mulf (FloatOps.logistic (FloatOps.addf (k0_pay3 X H (View.ld Wb r0_1) (View.ld Wb r0_2) Bb (ix8_3 (ix2 p q))) (FloatOps.mulf (Pf (ix8_4 (ix2 p q))) (C (ix8_5 (ix2 p q)))))) (C (ix8_6 (ix2 p q))))
        (FloatOps.mulf (FloatOps.logistic (FloatOps.addf (k0_pay3 X H (View.ld Wb r0_1) (View.ld Wb r0_2) Bb (ix8_7 (ix2 p q))) (FloatOps.mulf (Pi (ix8_8 (ix2 p q))) (C (ix8_9 (ix2 p q))))))
          (FloatOps.tanh (k0_pay3 X H (View.ld Wb r0_1) (View.ld Wb r0_2) Bb (ix8_10 (ix2 p q))))))) = _
  rw [tile_preact hh (ix8_0 (ix2 p q)) r (colOut q) hr (Fin.ext (by show q.val + 768 = 768 + q.val; omega)),
    tile_preact hh (ix8_3 (ix2 p q)) r (colForget q) hr (Fin.ext (by show q.val + 256 = 256 + q.val; omega)),
    tile_preact hh (ix8_7 (ix2 p q)) r (colIn q) hr (Fin.ext (by show q.val = q.val; rfl)),
    tile_preact hh (ix8_10 (ix2 p q)) r (colCand q) hr (Fin.ext (by show q.val + 512 = 512 + q.val; omega)),
    e1, e2, e4, e5, e6, e8, e9, hh.peepOut q, hh.peepForget q, hh.peepIn q, hh.cell p q r hr]
  rfl

end Block

/-! ## The point's blocks are rows of the arguments -/

variable (m : (ℓ : Loc nD τ sig) → Buf (Elt Ideal) ℓ) (ρ : Dev nD → PrngReg)

/-- Where each window's block sits at point `t`: the three batch windows and both result windows at block
    row `t`, the weight, bias and peephole windows always at block (0, 0). -/
structure IndexFacts (t : Fin cfg0.N) : Prop where
  row0 : win0_0.index t (0 : Fin 2) = t.val ∧ win0_0.index t (1 : Fin 2) = 0
  row1 : win0_1.index t (0 : Fin 2) = t.val ∧ win0_1.index t (1 : Fin 2) = 0
  row2 : win0_2.index t (0 : Fin 2) = t.val ∧ win0_2.index t (1 : Fin 2) = 0
  fixed3 : win0_3.index t (0 : Fin 2) = 0 ∧ win0_3.index t (1 : Fin 2) = 0
  fixed4 : win0_4.index t (0 : Fin 2) = 0 ∧ win0_4.index t (1 : Fin 2) = 0
  fixed5 : win0_5.index t (0 : Fin 2) = 0 ∧ win0_5.index t (1 : Fin 2) = 0
  fixed6 : win0_6.index t (0 : Fin 2) = 0 ∧ win0_6.index t (1 : Fin 2) = 0
  fixed7 : win0_7.index t (0 : Fin 2) = 0 ∧ win0_7.index t (1 : Fin 2) = 0
  row8 : win0_8.index t (0 : Fin 2) = t.val ∧ win0_8.index t (1 : Fin 2) = 0
  row9 : win0_9.index t (0 : Fin 2) = t.val ∧ win0_9.index t (1 : Fin 2) = 0

/-- The printed index maps, decided over the 128 points. -/
theorem index_raw : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem index_facts (t : Fin cfg0.N) : IndexFacts t := by
  obtain ⟨h0, h1, h2, h3, h4, h5, h6, h7, h8, h9⟩ := index_raw t
  exact ⟨h0, h1, h2, h3, h4, h5, h6, h7, h8, h9⟩

/-- The input window's block at point `t` is batch rows `1024·t … 1024·t + 1023` of the input. -/
theorem input_rows (c : Dev nD) (t : Fin cfg0.N) (p : Fin 1024) (k : Fin 256) (r : Fin 131072)
    (hr : r.val = 1024 * t.val + p.val) :
    (iblk m c 0 t : Vec Ideal S1024x256 .f32) (ix2 p k) = (m ((c : Thread nD τ).loc main_arg0) : SRows.Idx → EReal) (ix2 r k) := by
  have e0 : win0_0.index t (0 : Fin 2) = t.val := (index_facts t).row0.1
  have e1 : win0_0.index t (1 : Fin 2) = 0 := (index_facts t).row0.2
  refine Eq.trans ?_ (congrFun (V_main_arg0 m c) (ix2 r k))
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 1024 + 1 * p.val = r.val; rw [e0, hr]; omega
  | ⟨1, _⟩ => show win0_0.index t (1 : Fin 2) * 256 + 1 * k.val = k.val; rw [e1]; omega

/-- The hidden-state window's block at point `t` is the same rows of the previous hidden state. -/
theorem hidden_rows (c : Dev nD) (t : Fin cfg0.N) (p : Fin 1024) (k : Fin 256) (r : Fin 131072)
    (hr : r.val = 1024 * t.val + p.val) :
    (iblk m c 1 t : Vec Ideal S1024x256 .f32) (ix2 p k) = (m ((c : Thread nD τ).loc main_arg1) : SRows.Idx → EReal) (ix2 r k) := by
  have e0 : win0_1.index t (0 : Fin 2) = t.val := (index_facts t).row1.1
  have e1 : win0_1.index t (1 : Fin 2) = 0 := (index_facts t).row1.2
  refine Eq.trans ?_ (congrFun (V_main_arg1 m c) (ix2 r k))
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 1024 + 1 * p.val = r.val; rw [e0, hr]; omega
  | ⟨1, _⟩ => show win0_1.index t (1 : Fin 2) * 256 + 1 * k.val = k.val; rw [e1]; omega

/-- The cell-state window's block at point `t` is the same rows of the previous cell state. -/
theorem cell_rows (c : Dev nD) (t : Fin cfg0.N) (p : Fin 1024) (k : Fin 256) (r : Fin 131072)
    (hr : r.val = 1024 * t.val + p.val) :
    (iblk m c 2 t : Vec Ideal S1024x256 .f32) (ix2 p k) = (m ((c : Thread nD τ).loc main_arg2) : SRows.Idx → EReal) (ix2 r k) := by
  have e0 : win0_2.index t (0 : Fin 2) = t.val := (index_facts t).row2.1
  have e1 : win0_2.index t (1 : Fin 2) = 0 := (index_facts t).row2.2
  refine Eq.trans ?_ (congrFun (V_main_arg2 m c) (ix2 r k))
  show V m c main_arg2 (((cfg0.win 2).blk t).view.emb (ix2 p k)) = V m c main_arg2 (ix2 r k)
  refine congrArg (V m c main_arg2) (funext fun a => Fin.ext ?_)
  match a with
  | ⟨0, _⟩ => show win0_2.index t (0 : Fin 2) * 1024 + 1 * p.val = r.val; rw [e0, hr]; omega
  | ⟨1, _⟩ => show win0_2.index t (1 : Fin 2) * 256 + 1 * k.val = k.val; rw [e1]; omega

/-- The weight window's block is the whole weight matrix at every point. -/
theorem weights_all (c : Dev nD) (t : Fin cfg0.N) (a : Fin 512) (j : Fin 1024) :
    (iblk m c 3 t : Vec Ideal S512x1024 .f32) (ix2 a j) = (m ((c : Thread nD τ).loc main_arg3) : SWeights.Idx → EReal) (ix2 a j) := by
  have e0 : win0_3.index t (0 : Fin 2) = 0 := (index_facts t).fixed3.1
  have e1 : win0_3.index t (1 : Fin 2) = 0 := (index_facts t).fixed3.2
  refine Eq.trans ?_ (congrFun (V_main_arg3 m c) (ix2 a j))
  show V m c main_arg3 (((cfg0.win 3).blk t).view.emb (ix2 a j)) = V m c main_arg3 (ix2 a j)
  refine congrArg (V m c main_arg3) (funext fun d => Fin.ext ?_)
  match d with
  | ⟨0, _⟩ => show win0_3.index t (0 : Fin 2) * 512 + 1 * a.val = a.val; rw [e0]; omega
  | ⟨1, _⟩ => show win0_3.index t (1 : Fin 2) * 1024 + 1 * j.val = j.val; rw [e1]; omega

/-- The host reshapes the bias into one row before the region. -/
theorem bias_host (c : Dev nD) :
    (V m c main_v0 : S1x1024.Idx → EReal) = shapeCast S1x1024 (m ((c : Thread nD τ).loc main_arg4)) shapeCasts_S1024_S1x1024 := by
  dsimp only [Gen.V, Gen.hostOps0]; after_results; rfl

/-- The bias window's one row is the bias at every point. -/
theorem bias_row (c : Dev nD) (t : Fin cfg0.N) (j : Fin 1024) :
    (iblk m c 4 t : Vec Ideal S1x1024 .f32) (ix2 0 j) = (m ((c : Thread nD τ).loc main_arg4) : SBias.Idx → EReal) (ix1 j) := by
  have e0 : win0_4.index t (0 : Fin 2) = 0 := (index_facts t).fixed4.1
  have e1 : win0_4.index t (1 : Fin 2) = 0 := (index_facts t).fixed4.2
  have e : ((cfg0.win 4).blk t).view.emb (ix2 (0 : Fin 1) j) = ix2 (0 : Fin 1) j := funext fun d => Fin.ext (by
    match d with
    | ⟨0, _⟩ => show win0_4.index t (0 : Fin 2) * 1 + 1 * 0 = 0; rw [e0]
    | ⟨1, _⟩ => show win0_4.index t (1 : Fin 2) * 1024 + 1 * j.val = j.val; rw [e1]; omega)
  show V m c main_v0 (((cfg0.win 4).blk t).view.emb (ix2 0 j)) = _
  rw [e]
  exact (congrFun (bias_host m c) (ix2 0 j)).trans (shapeCast_a_1a_apply _ _ 0 j)

/-- The host reshapes the vector into one row before the region. -/
theorem peepIn_host (c : Dev nD) :
    (V m c main_v1 : S1x256.Idx → EReal) = shapeCast S1x256 (m ((c : Thread nD τ).loc main_arg5)) shapeCasts_S256_S1x256 := by
  dsimp only [Gen.V, Gen.hostOps0]; after_results; rfl

/-- The input gate's peephole window holds the peephole vector as its one row. -/
theorem peepIn_row (c : Dev nD) (t : Fin cfg0.N) (q : Fin 256) :
    (iblk m c 5 t : Vec Ideal S1x256 .f32) (ix2 0 q) = (m ((c : Thread nD τ).loc main_arg5) : SPeep.Idx → EReal) (ix1 q) := by
  have e0 : win0_5.index t (0 : Fin 2) = 0 := (index_facts t).fixed5.1
  have e1 : win0_5.index t (1 : Fin 2) = 0 := (index_facts t).fixed5.2
  have e : ((cfg0.win 5).blk t).view.emb (ix2 (0 : Fin 1) q) = ix2 (0 : Fin 1) q := funext fun d => Fin.ext (by
    match d with
    | ⟨0, _⟩ => show win0_5.index t (0 : Fin 2) * 1 + 1 * 0 = 0; rw [e0]
    | ⟨1, _⟩ => show win0_5.index t (1 : Fin 2) * 256 + 1 * q.val = q.val; rw [e1]; omega)
  show V m c main_v1 (((cfg0.win 5).blk t).view.emb (ix2 0 q)) = _
  rw [e]
  exact (congrFun (peepIn_host m c) (ix2 0 q)).trans (shapeCast_a_1a_apply _ _ 0 q)

/-- The host reshapes the vector into one row before the region. -/
theorem peepForget_host (c : Dev nD) :
    (V m c main_v2 : S1x256.Idx → EReal) = shapeCast S1x256 (m ((c : Thread nD τ).loc main_arg6)) shapeCasts_S256_S1x256 := by
  dsimp only [Gen.V, Gen.hostOps0]; after_results; rfl

/-- The forget gate's peephole window holds the peephole vector as its one row. -/
theorem peepForget_row (c : Dev nD) (t : Fin cfg0.N) (q : Fin 256) :
    (iblk m c 6 t : Vec Ideal S1x256 .f32) (ix2 0 q) = (m ((c : Thread nD τ).loc main_arg6) : SPeep.Idx → EReal) (ix1 q) := by
  have e0 : win0_6.index t (0 : Fin 2) = 0 := (index_facts t).fixed6.1
  have e1 : win0_6.index t (1 : Fin 2) = 0 := (index_facts t).fixed6.2
  have e : ((cfg0.win 6).blk t).view.emb (ix2 (0 : Fin 1) q) = ix2 (0 : Fin 1) q := funext fun d => Fin.ext (by
    match d with
    | ⟨0, _⟩ => show win0_6.index t (0 : Fin 2) * 1 + 1 * 0 = 0; rw [e0]
    | ⟨1, _⟩ => show win0_6.index t (1 : Fin 2) * 256 + 1 * q.val = q.val; rw [e1]; omega)
  show V m c main_v2 (((cfg0.win 6).blk t).view.emb (ix2 0 q)) = _
  rw [e]
  exact (congrFun (peepForget_host m c) (ix2 0 q)).trans (shapeCast_a_1a_apply _ _ 0 q)

/-- The host reshapes the vector into one row before the region. -/
theorem peepOut_host (c : Dev nD) :
    (V m c main_v3 : S1x256.Idx → EReal) = shapeCast S1x256 (m ((c : Thread nD τ).loc main_arg7)) shapeCasts_S256_S1x256 := by
  dsimp only [Gen.V, Gen.hostOps0]; after_results; rfl

/-- The output gate's peephole window holds the peephole vector as its one row. -/
theorem peepOut_row (c : Dev nD) (t : Fin cfg0.N) (q : Fin 256) :
    (iblk m c 7 t : Vec Ideal S1x256 .f32) (ix2 0 q) = (m ((c : Thread nD τ).loc main_arg7) : SPeep.Idx → EReal) (ix1 q) := by
  have e0 : win0_7.index t (0 : Fin 2) = 0 := (index_facts t).fixed7.1
  have e1 : win0_7.index t (1 : Fin 2) = 0 := (index_facts t).fixed7.2
  have e : ((cfg0.win 7).blk t).view.emb (ix2 (0 : Fin 1) q) = ix2 (0 : Fin 1) q := funext fun d => Fin.ext (by
    match d with
    | ⟨0, _⟩ => show win0_7.index t (0 : Fin 2) * 1 + 1 * 0 = 0; rw [e0]
    | ⟨1, _⟩ => show win0_7.index t (1 : Fin 2) * 256 + 1 * q.val = q.val; rw [e1]; omega)
  show V m c main_v3 (((cfg0.win 7).blk t).view.emb (ix2 0 q)) = _
  rw [e]
  exact (congrFun (peepOut_host m c) (ix2 0 q)).trans (shapeCast_a_1a_apply _ _ 0 q)

/-- Point `t`'s blocks hold batch rows `1024·t … 1024·t + 1023` and all of the small arrays. -/
theorem holds_at (c : Dev nD) (t : Fin cfg0.N) :
    Holds (iblk m c 0 t) (iblk m c 1 t) (iblk m c 2 t) (iblk m c 3 t) (iblk m c 4 t) (iblk m c 5 t) (iblk m c 6 t) (iblk m c 7 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (1024 * t.val) :=
  ⟨input_rows m c t, hidden_rows m c t, cell_rows m c t, weights_all m c t, bias_row m c t, peepIn_row m c t,
    peepForget_row m c t, peepOut_row m c t⟩

/-! ## The result arrays -/

/-- The specification's new hidden state of device `c`'s arguments. -/
abbrev newHidden (c : Dev nD) : SRows.Idx → EReal :=
  hiddenNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The specification's new cell state of device `c`'s arguments. -/
abbrev newCell (c : Dev nD) : SRows.Idx → EReal :=
  cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes back to the new-hidden-state array is block `t` of the specification's array. -/
theorem flushed_hidden (c : Dev nD) (t : Fin cfg0.N) :
    (dats m 0 c).flushed 8 t = ((cfg0.win 8).blk t).view.read (Elt Ideal) (newHidden m c) := by
  have e0 : win0_8.index t (0 : Fin 2) = t.val := (index_facts t).row8.1
  have e1 : win0_8.index t (1 : Fin 2) = 0 := (index_facts t).row8.2
  have ht : t.val < 128 := Nat.lt_of_lt_of_eq t.isLt N_0
  rw [flushed8]
  refine funext fun (y : S1024x256.Idx) => ?_
  have hy0 : (y 0).val < 1024 := (y 0).isLt
  show out0_8 (iblk m c 0 t) (iblk m c 1 t) (iblk m c 2 t) (iblk m c 3 t) (iblk m c 4 t) (iblk m c 5 t) (iblk m c 6 t) (iblk m c 7 t) y
      = newHidden m c (((cfg0.win 8).blk t).view.emb y)
  refine (hidden_block (holds_at m c t) y ⟨1024 * t.val + (y 0).val, by omega⟩ rfl).trans ?_
  show hiddenAt _ _ _ _ _ _ _ _ _ _ = hiddenAt _ _ _ _ _ _ _ _ ((((cfg0.win 8).blk t).view.emb y) 0) ((((cfg0.win 8).blk t).view.emb y) 1)
  refine congrArg₂ (hiddenAt _ _ _ _ _ _ _ _) (Fin.ext ?_) (Fin.ext ?_)
  · show 1024 * t.val + (y 0).val = win0_8.index t (0 : Fin 2) * 1024 + 1 * (y 0).val; rw [e0]; omega
  · show (y 1).val = win0_8.index t (1 : Fin 2) * 256 + 1 * (y 1).val; rw [e1]; omega

/-- An index of the array is in point `t`'s block iff each coordinate is in the block's range on its axis. -/
theorem mem_block8 (t : Fin cfg0.N) (i : S131072x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v4_0).slice (win0_8.rect t)).set ↔ _
  rw [View.set_slice_whole, Rect.mem_set_unit]
  exact Iff.rfl

/-- Batch row `r` lies in the block of point `r / 1024`: the 128 blocks of rows tile the array. -/
theorem cover8 (i : S131072x256.Idx) :
    ∃ t : Fin cfg0.N, (cfg0.win 8).flush t = true ∧ i ∈ ((cfg0.win 8).blk t).view.set := by
  have hi0 : (i 0).val < 131072 := (i 0).isLt
  have hi1 : (i 1).val < 256 := (i 1).isLt
  have hN : cfg0.N = 128 := N_0
  obtain ⟨t, ht⟩ : ∃ t : Fin cfg0.N, t.val = (i 0).val / 1024 := ⟨⟨(i 0).val / 1024, by rw [hN]; omega⟩, rfl⟩
  have e0 : win0_8.index t (0 : Fin 2) = t.val := (index_facts t).row8.1
  have e1 : win0_8.index t (1 : Fin 2) = 0 := (index_facts t).row8.2
  refine ⟨t, flush0_8 t, ?_⟩
  rw [mem_block8]
  intro a
  match a with
  | ⟨0, _⟩ => show win0_8.index t (0 : Fin 2) * 1024 ≤ (i 0).val ∧ (i 0).val < win0_8.index t (0 : Fin 2) * 1024 + 1024; rw [e0, ht]; omega
  | ⟨1, _⟩ => show win0_8.index t (1 : Fin 2) * 256 ≤ (i 1).val ∧ (i 1).val < win0_8.index t (1 : Fin 2) * 256 + 256; rw [e1]; omega

/-- After the run the new-hidden-state array is the specification's. -/
theorem final_hidden (c : Dev nD) : (dats m 0 c).arrAt 8 cfg0.N = newHidden m c :=
  (dats m 0 c).arrAt_eq_of_cover 8 (newHidden m c) (fun t _ => flushed_hidden m c t) cover8

/-- What point `t` writes back to the new-cell-state array is block `t` of the specification's array. -/
theorem flushed_cell (c : Dev nD) (t : Fin cfg0.N) :
    (dats m 0 c).flushed 9 t = ((cfg0.win 9).blk t).view.read (Elt Ideal) (newCell m c) := by
  have e0 : win0_9.index t (0 : Fin 2) = t.val := (index_facts t).row9.1
  have e1 : win0_9.index t (1 : Fin 2) = 0 := (index_facts t).row9.2
  have ht : t.val < 128 := Nat.lt_of_lt_of_eq t.isLt N_0
  rw [flushed9]
  refine funext fun (y : S1024x256.Idx) => ?_
  have hy0 : (y 0).val < 1024 := (y 0).isLt
  show out0_9 (iblk m c 0 t) (iblk m c 1 t) (iblk m c 2 t) (iblk m c 3 t) (iblk m c 4 t) (iblk m c 5 t) (iblk m c 6 t) (iblk m c 7 t) y
      = newCell m c (((cfg0.win 9).blk t).view.emb y)
  refine (cell_block (holds_at m c t) y ⟨1024 * t.val + (y 0).val, by omega⟩ rfl).trans ?_
  show cellAt _ _ _ _ _ _ _ _ _ = cellAt _ _ _ _ _ _ _ ((((cfg0.win 9).blk t).view.emb y) 0) ((((cfg0.win 9).blk t).view.emb y) 1)
  refine congrArg₂ (cellAt _ _ _ _ _ _ _) (Fin.ext ?_) (Fin.ext ?_)
  · show 1024 * t.val + (y 0).val = win0_9.index t (0 : Fin 2) * 1024 + 1 * (y 0).val; rw [e0]; omega
  · show (y 1).val = win0_9.index t (1 : Fin 2) * 256 + 1 * (y 1).val; rw [e1]; omega

/-- An index of the array is in point `t`'s block iff each coordinate is in the block's range on its axis. -/
theorem mem_block9 (t : Fin cfg0.N) (i : S131072x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v4_1).slice (win0_9.rect t)).set ↔ _
  rw [View.set_slice_whole, Rect.mem_set_unit]
  exact Iff.rfl

/-- Batch row `r` lies in the block of point `r / 1024`: the 128 blocks of rows tile the array. -/
theorem cover9 (i : S131072x256.Idx) :
    ∃ t : Fin cfg0.N, (cfg0.win 9).flush t = true ∧ i ∈ ((cfg0.win 9).blk t).view.set := by
  have hi0 : (i 0).val < 131072 := (i 0).isLt
  have hi1 : (i 1).val < 256 := (i 1).isLt
  have hN : cfg0.N = 128 := N_0
  obtain ⟨t, ht⟩ : ∃ t : Fin cfg0.N, t.val = (i 0).val / 1024 := ⟨⟨(i 0).val / 1024, by rw [hN]; omega⟩, rfl⟩
  have e0 : win0_9.index t (0 : Fin 2) = t.val := (index_facts t).row9.1
  have e1 : win0_9.index t (1 : Fin 2) = 0 := (index_facts t).row9.2
  refine ⟨t, flush0_9 t, ?_⟩
  rw [mem_block9]
  intro a
  match a with
  | ⟨0, _⟩ => show win0_9.index t (0 : Fin 2) * 1024 ≤ (i 0).val ∧ (i 0).val < win0_9.index t (0 : Fin 2) * 1024 + 1024; rw [e0, ht]; omega
  | ⟨1, _⟩ => show win0_9.index t (1 : Fin 2) * 256 ≤ (i 1).val ∧ (i 1).val < win0_9.index t (1 : Fin 2) * 256 + 256; rw [e1]; omega

/-- After the run the new-cell-state array is the specification's. -/
theorem final_cell (c : Dev nD) : (dats m 0 c).arrAt 9 cfg0.N = newCell m c :=
  (dats m 0 c).arrAt_eq_of_cover 9 (newCell m c) (fun t _ => flushed_cell m c t) cover9

/-- The kernel's run, read: both result arrays at the specification's arrays, the arguments unchanged. -/
theorem run : θ_run defs (onTc (τ := τ) (main (F := Ideal))) ⟨m, fun _ => 0, ρ⟩ fun r => ∀ c : Dev nD,
      r.2.mem ((c : Thread nD τ).loc main_v4_0) = newHidden m c
      ∧ r.2.mem ((c : Thread nD τ).loc main_v4_1) = newCell m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_cell m c), (h c).2.2⟩)
    (run_blocks m ρ)

end Cert.KernelIdeal.Rows

end
-- ==== Proof.lean ====
/-
  A batched peephole LSTM step: the kernel against its jnp reference, over the extended reals.

  Both programs compute, for every batch row `r` and unit `q`, the new cell state `c' = f·c + i·ĉ` and the new
  hidden state `h' = o·tanh(c')` of Proof/CellSpec.lean, and return `(h', h', c')`. They differ in two ways,
  neither of which changes a value on the extended reals.

  * The gate pre-activations. The reference joins the input and the previous hidden state into one 512-column
    operand and multiplies it by the whole weight matrix; the kernel multiplies the input by the upper 256 rows
    of the weights and the hidden state by the lower 256 rows, and adds the two products. A 512-term sum is the
    sum of its two 256-term halves, by commutativity and associativity of addition alone, so no finiteness of the
    inputs is used anywhere. The kernel's change of float format in front of each product is the identity on the
    extended reals.
  * The sigmoid. The kernel applies it as one operation; the reference spells it `1 / (1 + e^(-u))` with the
    constant `1.0`. On the extended reals the sigmoid IS that expression, with the division's and the
    exponential's conventions at the infinities.

  The kernel works through the batch 1024 rows at a time over 128 grid points; Proof/KernelRows.lean reads each
  point's two stored blocks as the specification's rows `1024·t … 1024·t + 1023` and tiles the result arrays
  with them. Proof/RefCell.lean reads the reference's run one operation at a time down to the same arrays.
  The idealization rewrote no operation of the kernel, so the kernel's idealization is its own text.
-/
import proofs.«154473_j20177756357192_1_alg».proof.Defs
import proofs.«154473_j20177756357192_1_alg».proof.Proof.Gen.Kernel
import proofs.«154473_j20177756357192_1_alg».proof.Proof.Gen.Kernel.Skeleton
import proofs.«154473_j20177756357192_1_alg».proof.Proof.Gen.Kernel.Launch
import proofs.«154473_j20177756357192_1_alg».proof.Proof.Gen.Kernel.Points
import proofs.«154473_j20177756357192_1_alg».proof.Proof.Gen.Kernel.Frame
import proofs.«154473_j20177756357192_1_alg».proof.Proof.Gen.KernelIdeal
import proofs.«154473_j20177756357192_1_alg».proof.Proof.Gen.KernelIdeal.Skeleton
import proofs.«154473_j20177756357192_1_alg».proof.Proof.Gen.KernelIdeal.Launch
import proofs.«154473_j20177756357192_1_alg».proof.Proof.Gen.KernelIdeal.Points
import proofs.«154473_j20177756357192_1_alg».proof.Proof.Gen.KernelIdeal.Frame
import proofs.«154473_j20177756357192_1_alg».proof.Proof.Gen.ReferenceIdeal
import proofs.«154473_j20177756357192_1_alg».proof.Proof.Gen.Pre_finite_inputs
import proofs.«154473_j20177756357192_1_alg».proof.Proof.Gen.KernelIdeal.Value
import proofs.«154473_j20177756357192_1_alg».proof.Proof.Gen.ReferenceIdeal.Run
import proofs.«154473_j20177756357192_1_alg».proof.Proof.Gen.ReferenceIdeal.Read
import proofs.«154473_j20177756357192_1_alg».proof.Proof.CellSpec
import proofs.«154473_j20177756357192_1_alg».proof.Proof.RefCell
import proofs.«154473_j20177756357192_1_alg».proof.Proof.KernelTile
import proofs.«154473_j20177756357192_1_alg».proof.Proof.KernelRows
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is straight-line host code: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing, so there is nothing to restate. -/
theorem preserves : Cert.preserves_Kernel_KernelIdeal := trivial

/-- From memories that agree on the eight arguments both programs end with `(h', h', c')` of the
    specification: the kernel by its blocks of rows, the reference one operation at a time. -/
theorem algebraic : Cert.algebraic_KernelIdeal_ReferenceIdeal := by
  intro m ρ m' ρ' _ hagree
  refine ⟨fun c => Cert.KernelIdeal.Rows.newHidden m c, fun c => Cert.KernelIdeal.Rows.newHidden m c,
    fun c => Cert.KernelIdeal.Rows.newCell m c, ?_, ?_⟩
  · exact (θ_run Cert.KernelIdeal.defs _ _).mono (fun r h c => ⟨(h c).1, (h c).1, (h c).2.1, (h c).2.2⟩)
      (Cert.KernelIdeal.Rows.run m ρ)
  · refine (θ_run Cert.ReferenceIdeal.defs _ _).mono (fun r h c => ?_)
      (Cert.ReferenceIdeal.Value.run (F := Ideal) m' ρ')
    obtain ⟨a0, a1, a2, a3, a4, a5, a6, a7⟩ := hagree c
    have eh : r.2.mem ((c.tc : Thread Cert.ReferenceIdeal.nD Cert.ReferenceIdeal.τ).loc Cert.ReferenceIdeal.main_v44)
        = Cert.KernelIdeal.Rows.newHidden m c := by
      rw [(h c).1, Cert.ReferenceIdeal.Read.val_main_v44_eq, Cert.ReferenceIdeal.RefCell.hidden_eq, a0, a1, a2, a3, a4, a5, a6, a7]
    have ec : r.2.mem ((c.tc : Thread Cert.ReferenceIdeal.nD Cert.ReferenceIdeal.τ).loc Cert.ReferenceIdeal.main_v42)
        = Cert.KernelIdeal.Rows.newCell m c := by
      rw [(h c).2.2.1, Cert.ReferenceIdeal.Read.val_main_v42_eq, Cert.ReferenceIdeal.RefCell.cell_eq, a0, a1, a2, a3, a4, a5, a6]
    exact ⟨eh, eh, ec, (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
